-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S1024x1024 : Shape := ⟨2, ![1024, 1024]⟩
abbrev S1024 : Shape := ⟨1, ![1024]⟩
abbrev S1024x16 : Shape := ⟨2, ![1024, 16]⟩
abbrev S16 : Shape := ⟨1, ![16]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_
  bcast_S_S1024x16 : S_.BroadcastsInDim S1024x16 (![] : Fin 0 → Fin S1024x16.rank)
  reducesTo_S1024x16_S_d0_1 : S1024x16.ReducesTo [0, 1] S_
  bcast_S_S16 : S_.BroadcastsInDim S16 (![] : Fin 0 → Fin S16.rank)
  reducesTo_S16_S_d0 : S16.ReducesTo [0] S_

variable [Facts]

def fn_part1 {F : FTy → Type} [FloatOps F] (main_arg4 : FVec F S16 .f32) (main_v13 : IVec S_ 1) (main_v16 : IVec S1024x16 1) : IVec S_ 1 :=
  let main_c_5 : IVec S_ 1 := constantI S_ 1 1#1
  let main_v17 : IVec S_ 1 := (fun x v => Host.reduce IntOp.andi x v reducesTo_S1024x16_S_d0_1 h_S_) main_v16 main_c_5
  let main_v18 : IVec S_ 1 := andi main_v13 main_v17
  let main_v19 : FVec F S16 .f32 := Host.absf main_arg4
  let main_cst_6 : FVec F S_ .f32 := constant S_ .f32 0x7F800000#32
  let main_v20 : FVec F S16 .f32 := broadcastInDim S16 ![] bcast_S_S16 main_cst_6
  let main_v21 : IVec S16 1 := cmpf .olt main_v19 main_v20
  let main_c_7 : IVec S_ 1 := constantI S_ 1 1#1
  let main_v22 : IVec S_ 1 := (fun x v => Host.reduce IntOp.andi x v reducesTo_S16_S_d0 h_S_) main_v21 main_c_7
  let main_v23 : IVec S_ 1 := andi main_v18 main_v22
  main_v23

def fn {F : FTy → Type} [FloatOps F] (main_arg0 : FVec F S8192x1024 .f32) (main_arg1 : FVec F S1024x1024 .f32) (main_arg2 : FVec F S1024 .f32) (main_arg3 : FVec F S1024x16 .f32) (main_arg4 : FVec F S16 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x16 .f32 := Host.absf main_arg3
  let main_cst_4 : FVec F S_ .f32 := constant S_ .f32 0x7F800000#32
  let main_v15 : FVec F S1024x16 .f32 := broadcastInDim S1024x16 ![] bcast_S_S1024x16 main_cst_4
  let main_v16 : IVec S1024x16 1 := cmpf .olt main_v14 main_v15
  fn_part1 (F := F) main_arg4 main_v13 main_v16
-- ==== Kernel.lean ====
abbrev S8192x1024 : Shape := ⟨2, ![8192, 1024]⟩
abbrev S1024x1024 : Shape := ⟨2, ![1024, 1024]⟩
abbrev S1024 : Shape := ⟨1, ![1024]⟩
abbrev S1024x16 : Shape := ⟨2, ![1024, 16]⟩
abbrev S16 : Shape := ⟨1, ![16]⟩
abbrev S1x1024 : Shape := ⟨2, ![1, 1024]⟩
abbrev S16x1024 : Shape := ⟨2, ![16, 1024]⟩
abbrev S16x1 : Shape := ⟨2, ![16, 1]⟩
abbrev S16x8192 : Shape := ⟨2, ![16, 8192]⟩
abbrev S8192x16 : Shape := ⟨2, ![8192, 16]⟩
abbrev S2048x1024 : Shape := ⟨2, ![2048, 1024]⟩
abbrev S16x2048 : Shape := ⟨2, ![16, 2048]⟩
abbrev S2048 : Shape := ⟨1, ![2048]⟩
abbrev S1x2048 : Shape := ⟨2, ![1, 2048]⟩

abbrev nBuf : Space → Nat
  | .hbm => 10
  | .vmem => 8
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S1024, .f32⟩
  | .hbm, ⟨3, _⟩ => ⟨S1024x16, .f32⟩
  | .hbm, ⟨4, _⟩ => ⟨S16, .f32⟩
  | .hbm, ⟨5, _⟩ => ⟨S1x1024, .f32⟩
  | .hbm, ⟨6, _⟩ => ⟨S16x1024, .f32⟩
  | .hbm, ⟨7, _⟩ => ⟨S16x1, .f32⟩
  | .hbm, ⟨8, _⟩ => ⟨S16x8192, .f32⟩
  | .hbm, ⟨9, _⟩ => ⟨S8192x16, .f32⟩
  | .local _ .vmem, ⟨0, _⟩ => ⟨S2048x1024, .f32⟩
  | .local _ .vmem, ⟨1, _⟩ => ⟨S2048x1024, .f32⟩
  | .local _ .vmem, ⟨2, _⟩ => ⟨S1024x1024, .f32⟩
  | .local _ .vmem, ⟨3, _⟩ => ⟨S1x1024, .f32⟩
  | .local _ .vmem, ⟨4, _⟩ => ⟨S16x1024, .f32⟩
  | .local _ .vmem, ⟨5, _⟩ => ⟨S16x1, .f32⟩
  | .local _ .vmem, ⟨6, _⟩ => ⟨S16x2048, .f32⟩
  | .local _ .vmem, ⟨7, _⟩ => ⟨S16x2048, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_v0 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S16x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S16x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S16x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S1024_S1x1024 : S1024.ShapeCasts S1x1024
  transposes_S1024x16_S16x1024_1_0 : S1024x16.Transposes [1, 0] S16x1024
  shapeCasts_S16_S16x1 : S16.ShapeCasts S16x1
  transposes_S16x8192_S8192x16_1_0 : S16x8192.Transposes [1, 0] S8192x16
  inb_S2048x1024_S2048x1024_0_0 : ∀ a, (![0, 0] : Fin 2 → Nat) a + S2048x1024.size a ≤ S2048x1024.size a
  h_S2048x1024 : 0 < S2048x1024.numel
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  inb_S16x1024_S16x1024_0_0 : ∀ a, (![0, 0] : Fin 2 → Nat) a + S16x1024.size a ≤ S16x1024.size a
  h_S16x1024 : 0 < S16x1024.numel
  shapeCasts_S16x1024_S16x1024 : S16x1024.ShapeCasts S16x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S2048x1024 : S1x1024.Broadcasts S2048x1024
  inb_S16x1_S16x1_0_0 : ∀ a, (![0, 0] : Fin 2 → Nat) a + S16x1.size a ≤ S16x1.size a
  h_S16x1 : 0 < S16x1.numel
  shapeCasts_S16x1_S16x1 : S16x1.ShapeCasts S16x1
  broadcasts_S16x1_S16x2048 : S16x1.Broadcasts S16x2048
  reduces_S16x2048_S2048 : S16x2048.Reduces [0] S2048
  shapeCasts_S2048_S1x2048 : S2048.ShapeCasts S1x2048
  broadcasts_S1x2048_S16x2048 : S1x2048.Broadcasts S16x2048
  inb_S16x2048_S16x2048_0_0 : ∀ a, (![0, 0] : Fin 2 → Nat) a + S16x2048.size a ≤ S16x2048.size a
  h_S16x2048 : 0 < S16x2048.numel
  dot_S2048x1024_S1024x1024_S2048x1024_1_0_0_1_n_n_wf : DotDims.WF S2048x1024 S1024x1024 S2048x1024 [1] [0] [0] [1] [] []
  dot_S16x1024_S2048x1024_S16x2048_1_1_0_0_n_n_wf : DotDims.WF S16x1024 S2048x1024 S16x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1024.size a ≤ S8192x1024.size a
  hwx0_0 : ∀ i : grid0.Coords, EltTy.bits .f32 = 32 ∨ (Rect.block (s := S8192x1024) S2048x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .f32 = 32 ∨ (Rect.block (s := S1024x1024) S1024x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S16x1024.size a ≤ S16x1024.size a
  hwx0_3 : ∀ i : grid0.Coords, EltTy.bits .f32 = 32 ∨ (Rect.block (s := S16x1024) S16x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S16x1.size a ≤ S16x1.size a
  hwx0_4 : ∀ i : grid0.Coords, EltTy.bits .f32 = 32 ∨ (Rect.block (s := S16x1) S16x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S16x2048.size a ≤ S16x8192.size a
  hwx0_5 : ∀ i : grid0.Coords, EltTy.bits .f32 = 32 ∨ (Rect.block (s := S16x8192) S16x2048.size (cc0_transform_5 i) (hinb0_5 i)).WholeWords (EltTy.packing .f32)

variable [Facts₀]

def dot_S2048x1024_S1024x1024_S2048x1024_1_0_0_1_n_n : DotDims S2048x1024 S1024x1024 S2048x1024 where
  lhsContracting := [1]
  rhsContracting := [0]
  lhsNonContracting := [0]
  rhsNonContracting := [1]
  lhsBatch := []
  rhsBatch := []
  wf := dot_S2048x1024_S1024x1024_S2048x1024_1_0_0_1_n_n_wf
def dot_S16x1024_S2048x1024_S16x2048_1_1_0_0_n_n : DotDims S16x1024 S2048x1024 S16x2048 where
  lhsContracting := [1]
  rhsContracting := [1]
  lhsNonContracting := [0]
  rhsNonContracting := [0]
  lhsBatch := []
  rhsBatch := []
  wf := dot_S16x1024_S2048x1024_S16x2048_1_1_0_0_n_n_wf

abbrev win0_0 : Pipeline.Window sig grid0 :=
  Pipeline.Window.ofSpec (Memref.whole main_arg0) S2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v0) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v1) S16x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_call0_v2) S16x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_call0_v3) S16x2048.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S8192x1024 : Shape := ⟨2, ![8192, 1024]⟩
abbrev S1024x1024 : Shape := ⟨2, ![1024, 1024]⟩
abbrev S1024 : Shape := ⟨1, ![1024]⟩
abbrev S1024x16 : Shape := ⟨2, ![1024, 16]⟩
abbrev S16 : Shape := ⟨1, ![16]⟩
abbrev S1x1024 : Shape := ⟨2, ![1, 1024]⟩
abbrev S_ : Shape := ⟨0, ![]⟩
abbrev S8192x16 : Shape := ⟨2, ![8192, 16]⟩
abbrev S1x16 : Shape := ⟨2, ![1, 16]⟩
abbrev S8192 : Shape := ⟨1, ![8192]⟩
abbrev S8192x1 : Shape := ⟨2, ![8192, 1]⟩

abbrev nBuf : Space → Nat
  | .hbm => 30
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S1024, .f32⟩
  | .hbm, ⟨3, _⟩ => ⟨S1024x16, .f32⟩
  | .hbm, ⟨4, _⟩ => ⟨S16, .f32⟩
  | .hbm, ⟨5, _⟩ => ⟨S8192x1024, .f32⟩
  | .hbm, ⟨6, _⟩ => ⟨S1x1024, .f32⟩
  | .hbm, ⟨7, _⟩ => ⟨S8192x1024, .f32⟩
  | .hbm, ⟨8, _⟩ => ⟨S8192x1024, .f32⟩
  | .hbm, ⟨9, _⟩ => ⟨S_, .f32⟩
  | .hbm, ⟨10, _⟩ => ⟨S8192x1024, .f32⟩
  | .hbm, ⟨11, _⟩ => ⟨S8192x1024, .f32⟩
  | .hbm, ⟨12, _⟩ => ⟨S8192x16, .f32⟩
  | .hbm, ⟨13, _⟩ => ⟨S1x16, .f32⟩
  | .hbm, ⟨14, _⟩ => ⟨S8192x16, .f32⟩
  | .hbm, ⟨15, _⟩ => ⟨S8192x16, .f32⟩
  | .hbm, ⟨16, _⟩ => ⟨S_, .f32⟩
  | .hbm, ⟨17, _⟩ => ⟨S8192, .f32⟩
  | .hbm, ⟨18, _⟩ => ⟨S_, .f32⟩
  | .hbm, ⟨19, _⟩ => ⟨S8192, .f32⟩
  | .hbm, ⟨20, _⟩ => ⟨S8192, .f32⟩
  | .hbm, ⟨21, _⟩ => ⟨S8192x1, .f32⟩
  | .hbm, ⟨22, _⟩ => ⟨S8192x16, .f32⟩
  | .hbm, ⟨23, _⟩ => ⟨S8192x16, .f32⟩
  | .hbm, ⟨24, _⟩ => ⟨S8192x16, .f32⟩
  | .hbm, ⟨25, _⟩ => ⟨S_, .f32⟩
  | .hbm, ⟨26, _⟩ => ⟨S8192, .f32⟩
  | .hbm, ⟨27, _⟩ => ⟨S8192x1, .f32⟩
  | .hbm, ⟨28, _⟩ => ⟨S8192x16, .f32⟩
  | .hbm, ⟨29, _⟩ => ⟨S8192x16, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩

abbrev nD : Nat := 1
abbrev τ : Topo := Topo.v7x

variable {F : FTy → Type} [FloatOps F]

class Facts₀ : Prop where
  bcast_S1024_S1x1024_1 : S1024.BroadcastsInDim S1x1024 (![1] : Fin 1 → Fin S1x1024.rank)
  bcast_S1x1024_S8192x1024_0_1 : S1x1024.BroadcastsInDim S8192x1024 (![0, 1] : Fin 2 → Fin S8192x1024.rank)
  bcast_S_S8192x1024 : S_.BroadcastsInDim S8192x1024 (![] : Fin 0 → Fin S8192x1024.rank)
  bcast_S16_S1x16_1 : S16.BroadcastsInDim S1x16 (![1] : Fin 1 → Fin S1x16.rank)
  bcast_S1x16_S8192x16_0_1 : S1x16.BroadcastsInDim S8192x16 (![0, 1] : Fin 2 → Fin S8192x16.rank)
  reducesTo_S8192x16_S8192_d1 : S8192x16.ReducesTo [1] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x16_0_1 : S8192x1.BroadcastsInDim S8192x16 (![0, 1] : Fin 2 → Fin S8192x16.rank)
  dot_S8192x1024_S1024x1024_S8192x1024_1_0_0_1_n_n_wf : DotDims.WF S8192x1024 S1024x1024 S8192x1024 [1] [0] [0] [1] [] []
  dot_S8192x1024_S1024x16_S8192x16_1_0_0_1_n_n_wf : DotDims.WF S8192x1024 S1024x16 S8192x16 [1] [0] [0] [1] [] []

variable [Facts₀]

def dot_S8192x1024_S1024x1024_S8192x1024_1_0_0_1_n_n : DotDims S8192x1024 S1024x1024 S8192x1024 where
  lhsContracting := [1]
  rhsContracting := [0]
  lhsNonContracting := [0]
  rhsNonContracting := [1]
  lhsBatch := []
  rhsBatch := []
  wf := dot_S8192x1024_S1024x1024_S8192x1024_1_0_0_1_n_n_wf
def dot_S8192x1024_S1024x16_S8192x16_1_0_0_1_n_n : DotDims S8192x1024 S1024x16 S8192x16 where
  lhsContracting := [1]
  rhsContracting := [0]
  lhsNonContracting := [0]
  rhsNonContracting := [1]
  lhsBatch := []
  rhsBatch := []
  wf := dot_S8192x1024_S1024x16_S8192x16_1_0_0_1_n_n_wf

class Facts : Prop extends Facts₀ where

variable [Facts]
-- ==== Proof.RouterSpec.lean ====
/-
  The router's gate, as mathematics on the extended reals.

  A mixture-of-experts router sends each token (a row of 1024 features) through one hidden layer of 1024 rectified
  units and a linear read-out to 16 experts, and turns the 16 scores into a probability vector by a softmax taken in
  its stabilised form (the largest score is subtracted before exponentiating):

      hidden_j  = max (Σ_k x_k · W1[k, j] + b1_j, 0)
      score_e   = Σ_k hidden_k · W2[k, e] + b2_e
      gate_e    = exp (score_e − top) / Σ_e' exp (score_e' − top),     top = max_e score_e.

  The gate of a token depends on that token's own row only, so everything here is stated for ONE row `xr` and the
  weights as functions of their coordinates; `routerOut` lays the 8192 tokens' gates out as the [8192, 16] array. Both
  programs of the certificate compute exactly this (the kernel on blocks of 2048 tokens and with the experts along the
  rows; the reference on the whole arrays).

  The float literals stay the bit patterns the programs print: the rectifier's `0.0` and the initial value `-inf` of
  the maximum occur on both sides and are never evaluated.
-/
import Idealize.ShloMosaic.PureOps.Ideal
import Idealize.ShloMosaic.PureOps.Ideal.Laws
import Idealize.ShloMosaic.Lib.ValueIdx

noncomputable section

open scoped BigOperators

namespace Cert.Router

open Idealize.ShloMosaic Idealize.ShloMosaic.ValueIdx

/-- One rectified hidden unit of a token with features `xr`. -/
def hidden (xr : Fin 1024 → EReal) (w1 : Fin 1024 → Fin 1024 → EReal) (b1 : Fin 1024 → EReal) (j : Fin 1024) : EReal :=
  max ((∑ k : Fin 1024, xr k * w1 k j) + b1 j) (Ideal.ofBits .f32 0x00000000#32)

/-- Expert `e`'s score for that token. -/
def score (xr : Fin 1024 → EReal) (w1 : Fin 1024 → Fin 1024 → EReal) (b1 : Fin 1024 → EReal)
    (w2 : Fin 1024 → Fin 16 → EReal) (b2 : Fin 16 → EReal) (e : Fin 16) : EReal :=
  (∑ k : Fin 1024, hidden xr w1 b1 k * w2 k e) + b2 e

/-- The largest of sixteen scores (a fold of `max` from the pattern of `-inf`). -/
def top16 (l : Fin 16 → EReal) : EReal :=
  (Finset.univ : Finset (Fin 16)).fold max (Ideal.ofBits .f32 0xFF800000#32) l

/-- The unnormalised softmax weight of expert `e`. -/
def weight16 (l : Fin 16 → EReal) (e : Fin 16) : EReal := Ideal.exp (l e - top16 l)

/-- The stabilised softmax over sixteen scores. -/
def softmax16 (l : Fin 16 → EReal) (e : Fin 16) : EReal :=
  Ideal.div (weight16 l e) (∑ e' : Fin 16, weight16 l e')

/-- The gate of one token. -/
def gate (xr : Fin 1024 → EReal) (w1 : Fin 1024 → Fin 1024 → EReal) (b1 : Fin 1024 → EReal)
    (w2 : Fin 1024 → Fin 16 → EReal) (b2 : Fin 16 → EReal) (e : Fin 16) : EReal :=
  softmax16 (score xr w1 b1 w2 b2) e

/-- The whole result: row `r` holds token `r`'s gate. -/
def routerOut (x : FVec Ideal ⟨2, ![8192, 1024]⟩ .f32) (w1 : FVec Ideal ⟨2, ![1024, 1024]⟩ .f32) (b1 : FVec Ideal ⟨1, ![1024]⟩ .f32)
    (w2 : FVec Ideal ⟨2, ![1024, 16]⟩ .f32) (b2 : FVec Ideal ⟨1, ![16]⟩ .f32) : FVec Ideal ⟨2, ![8192, 16]⟩ .f32 :=
  fun i => gate (fun k => x (ix2 (i 0) k)) (fun k j => w1 (ix2 k j)) (fun j => b1 (ix1 j)) (fun k e => w2 (ix2 k e))
    (fun e => b2 (ix1 e)) (i 1)

/-- A fold of `max` is at least its initial value, so taking the maximum with that value again changes nothing (the
    reference does so once more after its reduction). -/
theorem max_init_fold (a : EReal) (l : Fin 16 → EReal) :
    max a ((Finset.univ : Finset (Fin 16)).fold max a l) = (Finset.univ : Finset (Fin 16)).fold max a l :=
  max_eq_right ((Finset.le_fold_max a).mpr (Or.inl le_rfl))

/-- The softmax depends on the scores only: two score vectors that agree entry by entry have the same softmax. -/
theorem softmax16_congr {l l' : Fin 16 → EReal} (h : ∀ e, l e = l' e) (e : Fin 16) : softmax16 l e = softmax16 l' e := by
  rw [show l = l' from funext h]

/-- The gate depends on the token's row and on the weights entry by entry. -/
theorem gate_congr {xr xr' : Fin 1024 → EReal} {w1 w1' : Fin 1024 → Fin 1024 → EReal} {b1 b1' : Fin 1024 → EReal}
    {w2 w2' : Fin 1024 → Fin 16 → EReal} {b2 b2' : Fin 16 → EReal} (hx : ∀ k, xr k = xr' k) (hw1 : ∀ k j, w1 k j = w1' k j)
    (hb1 : ∀ j, b1 j = b1' j) (hw2 : ∀ k e, w2 k e = w2' k e) (hb2 : ∀ e, b2 e = b2' e) (e : Fin 16) :
    gate xr w1 b1 w2 b2 e = gate xr' w1' b1' w2' b2' e := by
  rw [show xr = xr' from funext hx, show w1 = w1' from funext fun k => funext (hw1 k), show b1 = b1' from funext hb1,
    show w2 = w2' from funext fun k => funext (hw2 k), show b2 = b2' from funext hb2]

end Cert.Router

end
-- ==== Proof.ReferenceGate.lean ====
/-
  The reference program computes the router's gate.

  The reference's run ends with its result at the composed term of its 25 host operations; read one operation at a
  time and one index at a time, that term at row `r`, column `e` is the gate of token `r` for expert `e`:
  the first product and bias give the hidden units, the second product and bias the scores, the reduction over the
  expert axis their maximum (taken once more against its own initial value, which changes nothing), and the last
  three operations the stabilised softmax. The reference's float sum starts from the pattern of `0.0`, which is the
  extended real zero.
-/
import proofs.«178995_g32238024524133_cont_8to1_b_1868_34_alg».proof.Proof.Gen.ReferenceIdeal.Read
import proofs.«178995_g32238024524133_cont_8to1_b_1868_34_alg».proof.Proof.RouterSpec
import Idealize.ShloMosaic.PureOps.Reduce

noncomputable section

open scoped BigOperators

namespace Cert.Router.Reference

open Cert.ReferenceIdeal Cert.ReferenceIdeal.Gen Cert.ReferenceIdeal.Read Idealize.ShloMosaic Idealize.ShloMosaic.ValueIdx Cert.Router

variable (x : (⟨S8192x1024, .f32⟩ : BufTy).Contents (Elt Ideal)) (w1 : (⟨S1024x1024, .f32⟩ : BufTy).Contents (Elt Ideal))
  (b1 : (⟨S1024, .f32⟩ : BufTy).Contents (Elt Ideal)) (w2 : (⟨S1024x16, .f32⟩ : BufTy).Contents (Elt Ideal))
  (b2 : (⟨S16, .f32⟩ : BufTy).Contents (Elt Ideal))

/-- The rectified sum `x @ W1 + b1` at (r, j) is hidden unit `j` of token `r`. -/
theorem hidden_at (r : Fin 8192) (j : Fin 1024) :
    val_main_v5 (F := Ideal) x w1 b1 (ix2 r j)
      = hidden (fun k => x (ix2 r k)) (fun k j => w1 (ix2 k j)) (fun j => b1 (ix1 j)) j := by
  rw [val_main_v5_apply, val_main_v3_apply, val_main_v0_apply, val_main_v2_apply, val_main_v1_apply, val_main_v4_apply,
    val_main_cst_apply]
  have e1 : ∀ k, lidx_main_v0 (ix2 r j) k = ix2 r k := fun k => funext fun a => by
    match a with | ⟨0, _⟩ => rfl | ⟨1, _⟩ => rfl
  have e2 : ∀ k, ridx_main_v0 (ix2 r j) k = ix2 k j := fun k => funext fun a => by
    match a with | ⟨0, _⟩ => rfl | ⟨1, _⟩ => rfl
  have e3 : idx_main_v1 (idx_main_v2 (ix2 r j)) = ix1 j := funext fun a => by
    match a with | ⟨0, _⟩ => rfl
  simp only [e1, e2, e3]
  rfl

/-- The second product plus its bias at (r, e) is expert `e`'s score for token `r`. -/
theorem score_at (r : Fin 8192) (e : Fin 16) :
    val_main_v9 (F := Ideal) x w1 b1 w2 b2 (ix2 r e)
      = score (fun k => x (ix2 r k)) (fun k j => w1 (ix2 k j)) (fun j => b1 (ix1 j)) (fun k e => w2 (ix2 k e))
          (fun e => b2 (ix1 e)) e := by
  rw [val_main_v9_apply, val_main_v6_apply, val_main_v8_apply, val_main_v7_apply]
  have e1 : ∀ k, lidx_main_v6 (ix2 r e) k = ix2 r k := fun k => funext fun a => by
    match a with | ⟨0, _⟩ => rfl | ⟨1, _⟩ => rfl
  have e2 : ∀ k, ridx_main_v6 (ix2 r e) k = ix2 k e := fun k => funext fun a => by
    match a with | ⟨0, _⟩ => rfl | ⟨1, _⟩ => rfl
  have e3 : idx_main_v7 (idx_main_v8 (ix2 r e)) = ix1 e := funext fun a => by
    match a with | ⟨0, _⟩ => rfl
  simp only [e1, e2, e3, hidden_at]
  rfl

/-- The reduction over the expert axis, joined once more with its initial value, is the largest score of token `r`. -/
theorem top_at (r : Fin 8192) :
    val_main_v12 (F := Ideal) x w1 b1 w2 b2 (ix1 r)
      = top16 (score (fun k => x (ix2 r k)) (fun k j => w1 (ix2 k j)) (fun j => b1 (ix1 j)) (fun k e => w2 (ix2 k e))
          (fun e => b2 (ix1 e))) := by
  have hR : S8192x16.Reduces [1] S8192 := by decide
  rw [val_main_v12_apply, val_main_v11_apply, val_main_cst_1_apply]
  unfold val_main_v10
  rw [Host.reduce_eq_fold_single FloatOps.maximumf _ _ reducesTo_S8192x16_S8192_d1 hR h_S_]
  have hl : (val_main_v9 (F := Ideal) x w1 b1 w2 b2 ∘ hR.lift (ix1 r))
      = score (fun k => x (ix2 r k)) (fun k j => w1 (ix2 k j)) (fun j => b1 (ix1 j)) (fun k e => w2 (ix2 k e))
          (fun e => b2 (ix1 e)) := funext fun (e : Fin 16) => by
    show val_main_v9 (F := Ideal) x w1 b1 w2 b2 (hR.lift (ix1 r) e) = _
    rw [show hR.lift (ix1 r) e = ix2 r e from funext fun a => Fin.ext (by
      match a with | ⟨0, _⟩ => rfl | ⟨1, _⟩ => rfl), score_at]
  rw [hl]
  exact max_init_fold _ _

/-- The exponential of a score less the largest one is that expert's softmax weight. -/
theorem weight_at (r : Fin 8192) (e : Fin 16) :
    val_main_v16 (F := Ideal) x w1 b1 w2 b2 (ix2 r e)
      = weight16 (score (fun k => x (ix2 r k)) (fun k j => w1 (ix2 k j)) (fun j => b1 (ix1 j)) (fun k e => w2 (ix2 k e))
          (fun e => b2 (ix1 e))) e := by
  rw [val_main_v16_apply, val_main_v15_apply, val_main_v14_apply, val_main_v13_apply, score_at]
  have e1 : idx_main_v13 (idx_main_v14 (ix2 r e)) = ix1 r := funext fun a => by
    match a with | ⟨0, _⟩ => rfl
  rw [e1, top_at]
  rfl

/-- The float sum over the expert axis, from the pattern of zero, is the sum of the sixteen weights. -/
theorem total_at (r : Fin 8192) :
    val_main_v17 (F := Ideal) x w1 b1 w2 b2 (ix1 r)
      = ∑ e' : Fin 16, weight16 (score (fun k => x (ix2 r k)) (fun k j => w1 (ix2 k j)) (fun j => b1 (ix1 j))
          (fun k e => w2 (ix2 k e)) (fun e => b2 (ix1 e))) e' := by
  rw [val_main_v17_apply, val_main_cst_2_apply]
  have e1 : ∀ k, idx_main_v17 (ix1 r) k = ix2 r k := fun k => funext fun a => by
    match a with | ⟨0, _⟩ => rfl | ⟨1, _⟩ => rfl
  simp only [e1, weight_at]
  show Ideal.ofBits .f32 0x00000000#32 + _ = _
  rw [Ideal.ofBits_zero_f32, zero_add]

/-- THE REFERENCE'S RESULT is the router's gate array. -/
theorem result_eq : val_main_v20 (F := Ideal) x w1 b1 w2 b2 = routerOut x w1 b1 w2 b2 := by
  funext i
  obtain ⟨r, e, rfl⟩ : ∃ (r : Fin 8192) (e : Fin 16), i = ix2 r e := ⟨i 0, i 1, eq_ix2 i⟩
  rw [val_main_v20_apply, weight_at, val_main_v19_apply, val_main_v18_apply]
  have e1 : idx_main_v18 (idx_main_v19 (ix2 r e)) = ix1 r := funext fun a => by
    match a with | ⟨0, _⟩ => rfl
  rw [e1, total_at]
  rfl

end Cert.Router.Reference

end
-- ==== Proof.KernelGate.lean ====
/-
  The kernel's body computes the router's gate, one block of 2048 tokens at a time and with the experts along the rows.

  The body's one store writes a [16, 2048] value: entry (e, q) belongs to expert `e` and to the `q`-th token of the
  block. Read at that entry, the stored value is the gate of the token whose features are row `q` of the loaded token
  block, under the loaded weights: W1 as it is, the first bias as the one row of a [1, 1024] block, W2 TRANSPOSED
  ([16, 1024]: row `e` holds expert `e`'s read-out weights), the second bias as the one column of a [16, 1] block.
  Three things differ from the specification's spelling and none changes the value: the operands pass through bf16
  (exact on the extended reals), each product accumulates into a zero splat (the sum itself), and the second product is
  written W2ᵀ[e, k] · hidden[q, k], the specification's factors in the other order (multiplication of extended reals
  commutes). The maximum and the sum over the experts run down the columns.
-/
import proofs.«178995_g32238024524133_cont_8to1_b_1868_34_alg».proof.Proof.Gen.KernelIdeal.Skeleton
import proofs.«178995_g32238024524133_cont_8to1_b_1868_34_alg».proof.Proof.RouterSpec
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.Router.Kernel

open Cert.KernelIdeal Cert.KernelIdeal.Gen Idealize.ShloMosaic Idealize.ShloMosaic.ValueIdx Cert.Router

/-! ## Two small layout and pointwise facts -/

/-- A column `[a, 1]` broadcast to `[a, b]` reads, at `(p, c)`, the column's entry `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The exponential of a vector, entry by entry. -/
theorem exp_apply {s : Shape} {φ : FTy} (a : FVec Ideal s φ) (i : s.Idx) : exp a i = Ideal.exp (a i) := rfl

/-! ## The two products at an entry -/

theorem first_lhs_0 (i : S2048x1024.Idx) (q : dot_S2048x1024_S1024x1024_S2048x1024_1_0_0_1_n_n.contr.Idx) :
    (dot_S2048x1024_S1024x1024_S2048x1024_1_0_0_1_n_n.lhsIdx i q 0).val = (i 0).val := by
  unfold DotDims.lhsIdx
  rw [dif_neg (show ¬(0 : Fin S2048x1024.rank) ∈ dot_S2048x1024_S1024x1024_S2048x1024_1_0_0_1_n_n.lhsBatch by decide), dif_pos (show (0 : Fin S2048x1024.rank) ∈ dot_S2048x1024_S1024x1024_S2048x1024_1_0_0_1_n_n.lhsNonContracting by decide)]
  rfl
theorem first_lhs_1 (i : S2048x1024.Idx) (q : dot_S2048x1024_S1024x1024_S2048x1024_1_0_0_1_n_n.contr.Idx) :
    (dot_S2048x1024_S1024x1024_S2048x1024_1_0_0_1_n_n.lhsIdx i q 1).val = (q ⟨0, by decide⟩).val :=
  dot_S2048x1024_S1024x1024_S2048x1024_1_0_0_1_n_n.lhsIdx_val_of_single rfl i q
theorem first_rhs_0 (i : S2048x1024.Idx) (q : dot_S2048x1024_S1024x1024_S2048x1024_1_0_0_1_n_n.contr.Idx) :
    (dot_S2048x1024_S1024x1024_S2048x1024_1_0_0_1_n_n.rhsIdx i q 0).val = (q ⟨0, by decide⟩).val :=
  dot_S2048x1024_S1024x1024_S2048x1024_1_0_0_1_n_n.rhsIdx_val_of_single rfl i q
theorem first_rhs_1 (i : S2048x1024.Idx) (q : dot_S2048x1024_S1024x1024_S2048x1024_1_0_0_1_n_n.contr.Idx) :
    (dot_S2048x1024_S1024x1024_S2048x1024_1_0_0_1_n_n.rhsIdx i q 1).val = (i 1).val := by
  unfold DotDims.rhsIdx
  rw [dif_neg (show ¬(1 : Fin S1024x1024.rank) ∈ dot_S2048x1024_S1024x1024_S2048x1024_1_0_0_1_n_n.rhsBatch by decide), dif_pos (show (1 : Fin S1024x1024.rank) ∈ dot_S2048x1024_S1024x1024_S2048x1024_1_0_0_1_n_n.rhsNonContracting by decide)]
  rfl

/-- The first product, tokens × W1 into a zero accumulator, at (q, j): the sum over the 1024 features. -/
theorem firstProduct_apply (a : FVec Ideal S2048x1024 .bf16) (b : FVec Ideal S1024x1024 .bf16) (q : Fin 2048) (j : Fin 1024) :
    matmul dot_S2048x1024_S1024x1024_S2048x1024_1_0_0_1_n_n none a b (constant S2048x1024 .f32 0x00000000#32) (ix2 q j)
      = ∑ k : Fin 1024, a (ix2 q k) * b (ix2 k j) := by
  simp only [matmul]
  rw [Ideal.matmul_constant_zero_apply, ← Equiv.sum_comp (contrEquiv1 dot_S2048x1024_S1024x1024_S2048x1024_1_0_0_1_n_n 1024 rfl rfl).symm]
  refine Finset.sum_congr rfl fun k _ => ?_
  have hk := contrEquiv1_symm_val dot_S2048x1024_S1024x1024_S2048x1024_1_0_0_1_n_n 1024 rfl rfl k
  have el : dot_S2048x1024_S1024x1024_S2048x1024_1_0_0_1_n_n.lhsIdx (ix2 q j) ((contrEquiv1 dot_S2048x1024_S1024x1024_S2048x1024_1_0_0_1_n_n 1024 rfl rfl).symm k) = ix2 q k := funext fun a => Fin.ext (by
    match a with
    | ⟨0, _⟩ => exact first_lhs_0 _ _
    | ⟨1, _⟩ => exact (first_lhs_1 _ _).trans hk)
  have er : dot_S2048x1024_S1024x1024_S2048x1024_1_0_0_1_n_n.rhsIdx (ix2 q j) ((contrEquiv1 dot_S2048x1024_S1024x1024_S2048x1024_1_0_0_1_n_n 1024 rfl rfl).symm k) = ix2 k j := funext fun a => Fin.ext (by
    match a with
    | ⟨0, _⟩ => exact (first_rhs_0 _ _).trans hk
    | ⟨1, _⟩ => exact first_rhs_1 _ _)
  rw [el, er]

theorem second_lhs_0 (i : S16x2048.Idx) (q : dot_S16x1024_S2048x1024_S16x2048_1_1_0_0_n_n.contr.Idx) :
    (dot_S16x1024_S2048x1024_S16x2048_1_1_0_0_n_n.lhsIdx i q 0).val = (i 0).val := by
  unfold DotDims.lhsIdx
  rw [dif_neg (show ¬(0 : Fin S16x1024.rank) ∈ dot_S16x1024_S2048x1024_S16x2048_1_1_0_0_n_n.lhsBatch by decide), dif_pos (show (0 : Fin S16x1024.rank) ∈ dot_S16x1024_S2048x1024_S16x2048_1_1_0_0_n_n.lhsNonContracting by decide)]
  rfl
theorem second_lhs_1 (i : S16x2048.Idx) (q : dot_S16x1024_S2048x1024_S16x2048_1_1_0_0_n_n.contr.Idx) :
    (dot_S16x1024_S2048x1024_S16x2048_1_1_0_0_n_n.lhsIdx i q 1).val = (q ⟨0, by decide⟩).val :=
  dot_S16x1024_S2048x1024_S16x2048_1_1_0_0_n_n.lhsIdx_val_of_single rfl i q
theorem second_rhs_0 (i : S16x2048.Idx) (q : dot_S16x1024_S2048x1024_S16x2048_1_1_0_0_n_n.contr.Idx) :
    (dot_S16x1024_S2048x1024_S16x2048_1_1_0_0_n_n.rhsIdx i q 0).val = (i 1).val := by
  unfold DotDims.rhsIdx
  rw [dif_neg (show ¬(0 : Fin S2048x1024.rank) ∈ dot_S16x1024_S2048x1024_S16x2048_1_1_0_0_n_n.rhsBatch by decide), dif_pos (show (0 : Fin S2048x1024.rank) ∈ dot_S16x1024_S2048x1024_S16x2048_1_1_0_0_n_n.rhsNonContracting by decide)]
  rfl
theorem second_rhs_1 (i : S16x2048.Idx) (q : dot_S16x1024_S2048x1024_S16x2048_1_1_0_0_n_n.contr.Idx) :
    (dot_S16x1024_S2048x1024_S16x2048_1_1_0_0_n_n.rhsIdx i q 1).val = (q ⟨0, by decide⟩).val :=
  dot_S16x1024_S2048x1024_S16x2048_1_1_0_0_n_n.rhsIdx_val_of_single rfl i q

/-- The second product, W2ᵀ against the hidden block contracted over BOTH operands' second axis, into a zero
    accumulator, at (e, q): the sum over the 1024 hidden units of W2ᵀ[e, k] · hidden[q, k]. -/
theorem secondProduct_apply (a : FVec Ideal S16x1024 .bf16) (b : FVec Ideal S2048x1024 .bf16) (e : Fin 16) (q : Fin 2048) :
    matmul dot_S16x1024_S2048x1024_S16x2048_1_1_0_0_n_n none a b (constant S16x2048 .f32 0x00000000#32) (ix2 e q)
      = ∑ k : Fin 1024, a (ix2 e k) * b (ix2 q k) := by
  simp only [matmul]
  rw [Ideal.matmul_constant_zero_apply, ← Equiv.sum_comp (contrEquiv1 dot_S16x1024_S2048x1024_S16x2048_1_1_0_0_n_n 1024 rfl rfl).symm]
  refine Finset.sum_congr rfl fun k _ => ?_
  have hk := contrEquiv1_symm_val dot_S16x1024_S2048x1024_S16x2048_1_1_0_0_n_n 1024 rfl rfl k
  have el : dot_S16x1024_S2048x1024_S16x2048_1_1_0_0_n_n.lhsIdx (ix2 e q) ((contrEquiv1 dot_S16x1024_S2048x1024_S16x2048_1_1_0_0_n_n 1024 rfl rfl).symm k) = ix2 e k := funext fun a => Fin.ext (by
    match a with
    | ⟨0, _⟩ => exact second_lhs_0 _ _
    | ⟨1, _⟩ => exact (second_lhs_1 _ _).trans hk)
  have er : dot_S16x1024_S2048x1024_S16x2048_1_1_0_0_n_n.rhsIdx (ix2 e q) ((contrEquiv1 dot_S16x1024_S2048x1024_S16x2048_1_1_0_0_n_n 1024 rfl rfl).symm k) = ix2 q k := funext fun a => Fin.ext (by
    match a with
    | ⟨0, _⟩ => exact second_rhs_0 _ _
    | ⟨1, _⟩ => exact (second_rhs_1 _ _).trans hk)
  rw [el, er]

/-! ## The reductions down the columns -/

/-- The maximum over the expert axis, at token `q`, is the largest of that column's sixteen entries. -/
theorem colMax_apply (l : FVec Ideal S16x2048 .f32) (q : Fin 2048) :
    multiReduction .maximumf [0] S2048 l 0xFF800000#32 reduces_S16x2048_S2048 (.inl rfl) rfl (ix1 q)
      = top16 (fun e => l (ix2 e q)) := by
  refine (Ideal.multiReduction_maximumf_single l 0xFF800000#32 reduces_S16x2048_S2048 (.inl rfl) rfl (ix1 q)).trans ?_
  unfold top16
  refine congrArg (fun f => Finset.fold max (Ideal.ofBits .f32 0xFF800000#32) f Finset.univ) (funext fun (e : Fin 16) => ?_)
  show l (reduces_S16x2048_S2048.lift (ix1 q) e) = l (ix2 e q)
  exact congrArg l (funext fun a => Fin.ext (by match a with | ⟨0, _⟩ => rfl | ⟨1, _⟩ => rfl))

/-- The sum over the expert axis, at token `q`, is the sum of that column's sixteen entries. -/
theorem colSum_apply (w : FVec Ideal S16x2048 .f32) (q : Fin 2048) :
    multiReduction .add [0] S2048 w 0x00000000#32 reduces_S16x2048_S2048 (.inl rfl) rfl (ix1 q)
      = ∑ e : Fin 16, w (ix2 e q) := by
  refine (Ideal.multiReduction_add_single w 0x00000000#32 reduces_S16x2048_S2048 (.inl rfl) rfl (ix1 q)).trans ?_
  refine Finset.sum_congr rfl fun (e : Fin 16) _ => ?_
  exact congrArg w (funext fun a => Fin.ext (by match a with | ⟨0, _⟩ => rfl | ⟨1, _⟩ => rfl))

/-! ## The body's value in three stages -/

/-- The rectified hidden activations of the block's 2048 tokens. -/
def hiddenBlock (v0 : FVec Ideal S2048x1024 .f32) (v2 : FVec Ideal S1024x1024 .f32) (v8 : FVec Ideal S1x1024 .f32) :
    FVec Ideal S2048x1024 .f32 :=
  maximumf
    (addf
      (matmul dot_S2048x1024_S1024x1024_S2048x1024_1_0_0_1_n_n none (truncf .bf16 v0 bitsLt_bf16_f32)
        (truncf .bf16 v2 bitsLt_bf16_f32) (constant S2048x1024 .f32 0x00000000#32))
      (broadcastTo S2048x1024 (shapeCast S1x1024 v8 shapeCasts_S1x1024_S1x1024) broadcasts_S1x1024_S2048x1024))
    (broadcast S2048x1024 (Scalar.ofBits .f32 0x00000000#32))

/-- The experts' scores of the block's tokens, experts along the rows. -/
def scoreBlock (v0 : FVec Ideal S2048x1024 .f32) (v2 : FVec Ideal S1024x1024 .f32) (v4 : FVec Ideal S16x1024 .f32)
    (v8 : FVec Ideal S1x1024 .f32) (v16 : FVec Ideal S16x1 .f32) : FVec Ideal S16x2048 .f32 :=
  addf
    (matmul dot_S16x1024_S2048x1024_S16x2048_1_1_0_0_n_n none
      (truncf .bf16 (shapeCast S16x1024 v4 shapeCasts_S16x1024_S16x1024) bitsLt_bf16_f32)
      (truncf .bf16 (hiddenBlock v0 v2 v8) bitsLt_bf16_f32) (constant S16x2048 .f32 0x00000000#32))
    (broadcastTo S16x2048 (shapeCast S16x1 v16 shapeCasts_S16x1_S16x1) broadcasts_S16x1_S16x2048)

/-- The exponentials of the scores less each column's largest. -/
def weightCols (l : FVec Ideal S16x2048 .f32) : FVec Ideal S16x2048 .f32 :=
  exp (subf l (broadcastTo S16x2048
    (shapeCast S1x2048 (multiReduction .maximumf [0] S2048 l 0xFF800000#32 reduces_S16x2048_S2048 (.inl rfl) rfl)
      shapeCasts_S2048_S1x2048) broadcasts_S1x2048_S16x2048))

/-- Each column divided by its sum. -/
def softmaxCols (l : FVec Ideal S16x2048 .f32) : FVec Ideal S16x2048 .f32 :=
  divf (weightCols l) (broadcastTo S16x2048
    (shapeCast S1x2048 (multiReduction .add [0] S2048 (weightCols l) 0x00000000#32 reduces_S16x2048_S2048 (.inl rfl) rfl)
      shapeCasts_S2048_S1x2048) broadcasts_S1x2048_S16x2048)

/-- The stored value is the column softmax of the score block. -/
theorem payload_eq (v0 : FVec Ideal S2048x1024 .f32) (v2 : FVec Ideal S1024x1024 .f32) (v4 : FVec Ideal S16x1024 .f32)
    (v8 : FVec Ideal S1x1024 .f32) (v16 : FVec Ideal S16x1 .f32) :
    k0_pay1 (F := Ideal) v0 v2 v4 v8 v16 = softmaxCols (scoreBlock v0 v2 v4 v8 v16) := rfl

theorem hiddenBlock_apply (v0 : FVec Ideal S2048x1024 .f32) (v2 : FVec Ideal S1024x1024 .f32) (v8 : FVec Ideal S1x1024 .f32)
    (q : Fin 2048) (j : Fin 1024) :
    hiddenBlock v0 v2 v8 (ix2 q j)
      = hidden (fun k => v0 (ix2 q k)) (fun k j => v2 (ix2 k j)) (fun j => v8 (ix2 (0 : Fin 1) j)) j := by
  unfold hiddenBlock
  rw [maximumf_apply, addf_apply, broadcast_apply, firstProduct_apply, shapeCast_self, broadcastTo_1b_ab_apply]
  rfl

theorem scoreBlock_apply (v0 : FVec Ideal S2048x1024 .f32) (v2 : FVec Ideal S1024x1024 .f32) (v4 : FVec Ideal S16x1024 .f32)
    (v8 : FVec Ideal S1x1024 .f32) (v16 : FVec Ideal S16x1 .f32) (e : Fin 16) (q : Fin 2048) :
    scoreBlock v0 v2 v4 v8 v16 (ix2 e q)
      = score (fun k => v0 (ix2 q k)) (fun k j => v2 (ix2 k j)) (fun j => v8 (ix2 (0 : Fin 1) j))
          (fun k e => v4 (ix2 e k)) (fun e => v16 (ix2 e (0 : Fin 1))) e := by
  unfold scoreBlock
  rw [addf_apply, secondProduct_apply, shapeCast_self, shapeCast_self, broadcastTo_a1_ab_apply]
  refine congrArg (· + v16 (ix2 e (0 : Fin 1))) (Finset.sum_congr rfl fun k _ => ?_)
  show v4 (ix2 e k) * hiddenBlock v0 v2 v8 (ix2 q k) = _
  rw [hiddenBlock_apply, mul_comm]

theorem weightCols_apply (l : FVec Ideal S16x2048 .f32) (e : Fin 16) (q : Fin 2048) :
    weightCols l (ix2 e q) = weight16 (fun e' => l (ix2 e' q)) e := by
  unfold weightCols
  rw [exp_apply, subf_apply, broadcastTo_1b_ab_apply, shapeCast_a_1a_apply, colMax_apply]
  rfl

theorem softmaxCols_apply (l : FVec Ideal S16x2048 .f32) (e : Fin 16) (q : Fin 2048) :
    softmaxCols l (ix2 e q) = softmax16 (fun e' => l (ix2 e' q)) e := by
  unfold softmaxCols
  rw [divf_apply, broadcastTo_1b_ab_apply, shapeCast_a_1a_apply, colSum_apply]
  simp only [weightCols_apply]
  rfl

/-- THE STORED VALUE at (e, q) is the gate of the block's `q`-th token for expert `e`. -/
theorem payload_apply (v0 : FVec Ideal S2048x1024 .f32) (v2 : FVec Ideal S1024x1024 .f32) (v4 : FVec Ideal S16x1024 .f32)
    (v8 : FVec Ideal S1x1024 .f32) (v16 : FVec Ideal S16x1 .f32) (e : Fin 16) (q : Fin 2048) :
    k0_pay1 (F := Ideal) v0 v2 v4 v8 v16 (ix2 e q)
      = gate (fun k => v0 (ix2 q k)) (fun k j => v2 (ix2 k j)) (fun j => v8 (ix2 (0 : Fin 1) j))
          (fun k e => v4 (ix2 e k)) (fun e => v16 (ix2 e (0 : Fin 1))) e := by
  rw [payload_eq, softmaxCols_apply]
  exact softmax16_congr (fun e' => scoreBlock_apply v0 v2 v4 v8 v16 e' q) e

end Cert.Router.Kernel

end
-- ==== Proof.KernelArray.lean ====
/-
  From the kernel's blocks to its result array, and through the transposes around the launch.

  The launch has four grid points; point `t` is handed tokens 2048·t … 2048·t + 2047 (a [2048, 1024] block of `x`), the
  whole of W1, the first bias as a [1, 1024] row, W2 transposed and the second bias as a [16, 1] column, and writes
  back the [16, 2048] block of columns 2048·t … of a [16, 8192] array. Entry (e, q) of what it writes is the gate of
  the block's `q`-th token for expert `e`, that is, of token 2048·t + q: every written block is a block of ONE
  array, the gates of all 8192 tokens with the experts along the rows, and the four blocks tile it. Before the launch
  three host lines re-lay the small operands (two reshapes and W2's transpose); after it one host line transposes the
  [16, 8192] array into the [8192, 16] result. Read through those, the result is the router's gate array of the
  launch contents of the five arguments.
-/
import proofs.«178995_g32238024524133_cont_8to1_b_1868_34_alg».proof.Proof.Gen.KernelIdeal.Frame
import proofs.«178995_g32238024524133_cont_8to1_b_1868_34_alg».proof.Proof.KernelGate
import Idealize.ShloMosaic.Lib.Pipeline.Value
import Idealize.ShloMosaic.Lib.ValueLayout
import Idealize.ShloMosaic.Lib.StableHlo.Run

set_option maxRecDepth 16384

noncomputable section

open scoped BigOperators

namespace Cert.Router.Kernel

open Cert.KernelIdeal Cert.KernelIdeal.Gen Idealize.ShloMosaic Idealize.ShloMosaic.TcCoe Idealize.SL.Sem
open Idealize.ShloMosaic.StableHlo Idealize.ShloMosaic.ValueIdx Cert.Router
open Idealize.ShloMosaic.Pipeline (Dat)

variable (m : (ℓ : Loc nD τ sig) → Buf (Elt Ideal) ℓ) (ρ : Dev nD → PrngReg)

/-! ## The array the blocks are blocks of -/

/-- The gates of all tokens with the experts along the rows, from the operands in the layout the launch is handed. -/
def gateRows (x : FVec Ideal S8192x1024 .f32) (w1 : FVec Ideal S1024x1024 .f32) (b1r : FVec Ideal S1x1024 .f32)
    (w2t : FVec Ideal S16x1024 .f32) (b2c : FVec Ideal S16x1 .f32) : FVec Ideal S16x8192 .f32 :=
  fun i => gate (fun k => x (ix2 (i 1) k)) (fun k j => w1 (ix2 k j)) (fun j => b1r (ix2 (0 : Fin 1) j))
    (fun k e => w2t (ix2 e k)) (fun e => b2c (ix2 e (0 : Fin 1))) (i 0)

theorem zero_offset : (![0, 0] : Fin 2 → Nat) = fun _ => 0 := funext fun a => by fin_cases a <;> rfl

/-- The index maps over the four points: the token window moves with the output's columns, every other input window
    stays at block 0, the output's row block is 0 and its column block at most 3. -/
theorem idx_facts : ∀ t : Fin cfg0.N,
    win0_0.index t (0 : Fin 2) = win0_5.index t (1 : Fin 2) ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) ≤ 3 :=
  (by decide +kernel : ∀ t : Fin grid0.N, _)

/-- Every column block of the output is some point's. -/
theorem idx_onto : ∀ b : Fin 4, ∃ t : Fin cfg0.N, win0_5.index t = ![0, b.val] :=
  (by decide +kernel : ∀ b : Fin 4, ∃ t : Fin grid0.N, win0_5.index t = ![0, b.val])

/-- The five input blocks at a point, at their literal types. -/
abbrev tokBlk (c : Dev nD) (t : Fin cfg0.N) : FVec Ideal S2048x1024 .f32 := iblk m c 0 t
abbrev w1Blk (c : Dev nD) (t : Fin cfg0.N) : FVec Ideal S1024x1024 .f32 := iblk m c 1 t
abbrev b1Blk (c : Dev nD) (t : Fin cfg0.N) : FVec Ideal S1x1024 .f32 := iblk m c 2 t
abbrev w2tBlk (c : Dev nD) (t : Fin cfg0.N) : FVec Ideal S16x1024 .f32 := iblk m c 3 t
abbrev b2Blk (c : Dev nD) (t : Fin cfg0.N) : FVec Ideal S16x1 .f32 := iblk m c 4 t

/-- WHAT POINT `t` WRITES BACK is block `t` of the gate array of the operands as the launch finds them. -/
theorem flushed_eq (c : Dev nD) (t : Fin cfg0.N) :
    (dats m 0 c).flushed 5 t = ((cfg0.win 5).blk t).view.read (Elt Ideal)
      (gateRows (V m c main_arg0) (V m c main_arg1) (V m c main_call0_v0) (V m c main_call0_v1) (V m c main_call0_v2)) := by
  show (cfg0.win 5).cut (grid0.coords t) ((dats m 0 c).after 5 t) = _
  rw [after0_5]
  unfold out0_5
  rw [View.canon_unit_zero zero_offset]
  simp only [View.ld_unit_zero (S := S2048x1024) zero_offset, View.ld_unit_zero (S := S1024x1024) zero_offset,
    View.ld_unit_zero (S := S16x1024) zero_offset, View.ld_unit_zero (S := S1x1024) zero_offset,
    View.ld_unit_zero (S := S16x1) zero_offset]
  obtain ⟨f0, f1, f2, f3, f4, f5, f6, f7, f8, f9, f10, f11⟩ := idx_facts t
  refine funext fun (j : S16x2048.Idx) => ?_
  obtain ⟨e, q, rfl⟩ : ∃ (e : Fin 16) (q : Fin 2048), j = ix2 e q := ⟨j 0, j 1, eq_ix2 j⟩
  have hlt : win0_5.index t (1 : Fin 2) * 2048 + q.val < 8192 := by have := q.isLt; omega
  have hemb : ((cfg0.win 5).blk t).view.emb (ix2 e q) = ix2 e (⟨win0_5.index t (1 : Fin 2) * 2048 + q.val, hlt⟩ : Fin 8192) := by
    funext a; apply Fin.ext
    match a with
    | ⟨0, _⟩ => show win0_5.index t (0 : Fin 2) * 16 + 1 * e.val = e.val; omega
    | ⟨1, _⟩ => show win0_5.index t (1 : Fin 2) * 2048 + 1 * q.val = win0_5.index t (1 : Fin 2) * 2048 + q.val; omega
  show k0_pay1 (F := Ideal) (tokBlk m c t) (w1Blk m c t) (w2tBlk m c t) (b1Blk m c t) (b2Blk m c t) (ix2 e q)
    = gateRows (V m c main_arg0) (V m c main_arg1) (V m c main_call0_v0) (V m c main_call0_v1) (V m c main_call0_v2)
        (((cfg0.win 5).blk t).view.emb (ix2 e q))
  rw [hemb]
  refine (payload_apply (tokBlk m c t) (w1Blk m c t) (w2tBlk m c t) (b1Blk m c t) (b2Blk m c t) e q).trans ?_
  show _ = gate (fun k => V m c main_arg0 (ix2 (⟨win0_5.index t (1 : Fin 2) * 2048 + q.val, hlt⟩ : Fin 8192) k))
    (fun k j => V m c main_arg1 (ix2 k j)) (fun j => V m c main_call0_v0 (ix2 (0 : Fin 1) j))
    (fun k e => V m c main_call0_v1 (ix2 e k)) (fun e => V m c main_call0_v2 (ix2 e (0 : Fin 1))) e
  refine gate_congr ?_ ?_ ?_ ?_ ?_ e
  · intro k
    show V m c main_arg0 (((cfg0.win 0).blk t).view.emb (ix2 q k)) = _
    refine congrArg (V m c main_arg0) (funext fun a => Fin.ext ?_)
    match a with
    | ⟨0, _⟩ => show win0_0.index t (0 : Fin 2) * 2048 + 1 * q.val = win0_5.index t (1 : Fin 2) * 2048 + q.val; omega
    | ⟨1, _⟩ => show win0_0.index t (1 : Fin 2) * 1024 + 1 * k.val = k.val; omega
  · intro k j
    show V m c main_arg1 (((cfg0.win 1).blk t).view.emb (ix2 k j)) = _
    refine congrArg (V m c main_arg1) (funext fun a => Fin.ext ?_)
    match a with
    | ⟨0, _⟩ => show win0_1.index t (0 : Fin 2) * 1024 + 1 * k.val = k.val; omega
    | ⟨1, _⟩ => show win0_1.index t (1 : Fin 2) * 1024 + 1 * j.val = j.val; omega
  · intro j
    show V m c main_call0_v0 (((cfg0.win 2).blk t).view.emb (ix2 (0 : Fin 1) j)) = _
    refine congrArg (V m c main_call0_v0) (funext fun a => Fin.ext ?_)
    match a with
    | ⟨0, _⟩ => show win0_2.index t (0 : Fin 2) * 1 + 1 * 0 = 0; omega
    | ⟨1, _⟩ => show win0_2.index t (1 : Fin 2) * 1024 + 1 * j.val = j.val; omega
  · intro k e'
    show V m c main_call0_v1 (((cfg0.win 3).blk t).view.emb (ix2 e' k)) = _
    refine congrArg (V m c main_call0_v1) (funext fun a => Fin.ext ?_)
    match a with
    | ⟨0, _⟩ => show win0_3.index t (0 : Fin 2) * 16 + 1 * e'.val = e'.val; omega
    | ⟨1, _⟩ => show win0_3.index t (1 : Fin 2) * 1024 + 1 * k.val = k.val; omega
  · intro e'
    show V m c main_call0_v2 (((cfg0.win 4).blk t).view.emb (ix2 e' (0 : Fin 1))) = _
    refine congrArg (V m c main_call0_v2) (funext fun a => Fin.ext ?_)
    match a with
    | ⟨0, _⟩ => show win0_4.index t (0 : Fin 2) * 16 + 1 * e'.val = e'.val; omega
    | ⟨1, _⟩ => show win0_4.index t (1 : Fin 2) * 1 + 1 * 0 = 0; omega

/-- An index of the [16, 8192] array is in point `t`'s block iff each coordinate is in the block's range on its axis. -/
theorem mem_blk (t : Fin cfg0.N) (i : S16x8192.Idx) :
    i ∈ ((cfg0.win 5).blk t).view.set ↔ ∀ a : Fin 2, win0_5.index t a * S16x2048.size a ≤ (i a).val
      ∧ (i a).val < win0_5.index t a * S16x2048.size a + S16x2048.size a := by
  show i ∈ ((View.whole main_call0_v3).slice (win0_5.rect t)).set ↔ _
  rw [View.set_slice_whole, Rect.mem_set_unit]
  exact Iff.rfl

/-- The four blocks cover the array: column `r` lies in the block of point `r / 2048`. -/
theorem cover (i : S16x8192.Idx) :
    ∃ t : Fin cfg0.N, (cfg0.win 5).flush t = true ∧ i ∈ ((cfg0.win 5).blk t).view.set := by
  have hi0 : (i 0).val < 16 := (i 0).isLt
  have hi1 : (i 1).val < 8192 := (i 1).isLt
  obtain ⟨t, ht⟩ := idx_onto ⟨(i 1).val / 2048, by omega⟩
  have q0 : win0_5.index t (0 : Fin 2) = 0 := congrFun ht 0
  have q1 : win0_5.index t (1 : Fin 2) = (i 1).val / 2048 := congrFun ht 1
  refine ⟨t, flush0_5 t, ?_⟩
  rw [mem_blk]
  intro a
  match a with
  | ⟨0, _⟩ => show win0_5.index t (0 : Fin 2) * 16 ≤ (i 0).val ∧ (i 0).val < win0_5.index t (0 : Fin 2) * 16 + 16; omega
  | ⟨1, _⟩ => show win0_5.index t (1 : Fin 2) * 2048 ≤ (i 1).val ∧ (i 1).val < win0_5.index t (1 : Fin 2) * 2048 + 2048; omega

/-- THE [16, 8192] ARRAY after the launch is the gate array of the operands as the launch finds them. -/
theorem final (c : Dev nD) :
    (dats m 0 c).arrAt 5 cfg0.N
      = gateRows (V m c main_arg0) (V m c main_arg1) (V m c main_call0_v0) (V m c main_call0_v1) (V m c main_call0_v2) :=
  (dats m 0 c).arrAt_eq_of_cover 5 _ (fun t _ => flushed_eq m c t) cover

/-! ## The host lines before the launch -/

/-- A vector `[a]` cast to a column `[a, 1]` reads, at `(i, u)`, the vector at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The first bias reaches the launch as its one-row reshape. -/
theorem b1row_eq (c : Dev nD) :
    (V m c main_call0_v0 : S1x1024.Idx → EReal)
      = shapeCast S1x1024 (m ((c : Thread nD τ).loc main_arg2)) shapeCasts_S1024_S1x1024 := by
  show StableHlo.after hostOps0 (fun b => m (c, b)) (Proc.devRef .tc main_call0_v0) = _
  after_results
  rfl

/-- W2 reaches the launch transposed. -/
theorem w2t_eq (c : Dev nD) :
    (V m c main_call0_v1 : S16x1024.Idx → EReal)
      = transpose S16x1024 [1, 0] (m ((c : Thread nD τ).loc main_arg3)) transposes_S1024x16_S16x1024_1_0 := by
  show StableHlo.after hostOps0 (fun b => m (c, b)) (Proc.devRef .tc main_call0_v1) = _
  after_results
  rfl

/-- The second bias reaches the launch as its one-column reshape. -/
theorem b2col_eq (c : Dev nD) :
    (V m c main_call0_v2 : S16x1.Idx → EReal)
      = shapeCast S16x1 (m ((c : Thread nD τ).loc main_arg4)) shapeCasts_S16_S16x1 := by
  show StableHlo.after hostOps0 (fun b => m (c, b)) (Proc.devRef .tc main_call0_v2) = _
  after_results
  rfl

/-- The gate array the launch leaves, read at (e, r), is the router's gate array of the ARGUMENTS at (r, e). -/
theorem gateRows_launch (c : Dev nD) (e : Fin 16) (r : Fin 8192) :
    gateRows (V m c main_arg0) (V m c main_arg1) (V m c main_call0_v0) (V m c main_call0_v1) (V m c main_call0_v2) (ix2 e r)
      = routerOut (m ((c : Thread nD τ).loc main_arg0)) (m ((c : Thread nD τ).loc main_arg1))
          (m ((c : Thread nD τ).loc main_arg2)) (m ((c : Thread nD τ).loc main_arg3)) (m ((c : Thread nD τ).loc main_arg4))
          (ix2 r e) := by
  show gate (fun k => V m c main_arg0 (ix2 r k)) (fun k j => V m c main_arg1 (ix2 k j))
      (fun j => V m c main_call0_v0 (ix2 (0 : Fin 1) j)) (fun k e => V m c main_call0_v1 (ix2 e k))
      (fun e => V m c main_call0_v2 (ix2 e (0 : Fin 1))) e
    = gate (fun k => m ((c : Thread nD τ).loc main_arg0) (ix2 r k)) (fun k j => m ((c : Thread nD τ).loc main_arg1) (ix2 k j))
      (fun j => m ((c : Thread nD τ).loc main_arg2) (ix1 j)) (fun k e => m ((c : Thread nD τ).loc main_arg3) (ix2 k e))
      (fun e => m ((c : Thread nD τ).loc main_arg4) (ix1 e)) e
  refine gate_congr ?_ ?_ ?_ ?_ ?_ e
  · intro k; rw [V_main_arg0]
  · intro k j; rw [V_main_arg1]
  · intro j
    refine (congrFun (b1row_eq m c) (ix2 (0 : Fin 1) j)).trans ?_
    exact shapeCast_a_1a_apply _ _ _ _
  · intro k e'
    refine (congrFun (w2t_eq m c) (ix2 e' k)).trans ?_
    exact transpose_ix2_apply _ _ _ _
  · intro e'
    refine (congrFun (b2col_eq m c) (ix2 e' (0 : Fin 1))).trans ?_
    exact shapeCast_a_a1_apply _ _ _ _

/-! ## The host line after the launch -/

/-- THE RESULT: the transpose of the launch's array is the router's gate array of the arguments. -/
theorem result_eq (c : Dev nD) :
    Pipeline.afterTail₀ cfgs (dats m) 0 (V0 m) [hostOps1] c main_v0
      = routerOut (m ((c : Thread nD τ).loc main_arg0)) (m ((c : Thread nD τ).loc main_arg1))
          (m ((c : Thread nD τ).loc main_arg2)) (m ((c : Thread nD τ).loc main_arg3)) (m ((c : Thread nD τ).loc main_arg4)) := by
  unfold Pipeline.afterTail₀
  show StableHlo.after hostOps1 _ (Proc.devRef .tc main_v0) = _
  after_results
  have hA : Pipeline.withArrays (cfgs 0).spec c (V0 m c) (fun w => (dats m 0 c).arrAt w (cfgs 0).N)
      (Proc.devRef .tc main_call0_v3)
      = gateRows (V m c main_arg0) (V m c main_arg1) (V m c main_call0_v0) (V m c main_call0_v1) (V m c main_call0_v2) :=
    (Pipeline.withArrays_arr spec0 launch0.win.arr_inj c _ _ 5).trans (final m c)
  show transpose S8192x16 [1, 0] (Pipeline.withArrays (cfgs 0).spec c (V0 m c)
      (fun w => (dats m 0 c).arrAt w (cfgs 0).N) (Proc.devRef .tc main_call0_v3)) transposes_S16x8192_S8192x16_1_0 = _
  rw [hA]
  funext i
  obtain ⟨r, e, rfl⟩ : ∃ (r : Fin 8192) (e : Fin 16), i = ix2 r e := ⟨i 0, i 1, eq_ix2 i⟩
  exact (transpose_ix2_apply _ _ _ _).trans (gateRows_launch m c e r)

/-! ## The kernel's run, read -/

/-- Every weakly fair execution of the idealized kernel program terminates with its result at the router's gate array
    of the arguments' launch contents, the arguments unchanged: the frame run with its post read through the lemmas
    above. -/
theorem run : θ_run defs (onTc (τ := τ) (main (F := Ideal))) ⟨m, fun _ => 0, ρ⟩ (fun r => ∀ c : Dev nD,
      r.2.mem ((c.tc : Thread nD τ).loc main_v0)
        = routerOut (m ((c.tc : Thread nD τ).loc main_arg0)) (m ((c.tc : Thread nD τ).loc main_arg1))
            (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_v0 (Pipeline.mem_restRefs_of main_v0 (by decide) (by decide))).trans (result_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.Router.Kernel

end
-- ==== Proof.lean ====
/-
  A mixture-of-experts router, softmax (relu (x · W1 + b1) · W2 + b2) over 8192 tokens, 1024 features and 16 experts:
  one fused kernel against its jnp reference, equal as functions on the extended reals.

  The kernel tiles the tokens in four blocks of 2048 and works with the experts along the rows: it is handed W2
  transposed and the biases as a row and a column, computes for each block the hidden activations, the scores
  W2ᵀ · hiddenᵀ + b2, and a softmax down each column, writes a [16, 8192] array, and the host transposes it back. The
  reference computes the same on whole arrays, row-wise. On the extended reals the two are ONE function, the gate of
  each token (Proof/RouterSpec.lean): the kernel's passes through bf16 are exact, a product into a zero accumulator is
  the plain sum, the kernel's second product has the specification's factors in the other order (multiplication
  commutes; nothing is distributed or cancelled, so the precondition is never opened), the reference's second maximum
  with its own initial value changes nothing, and its float sum starts from zero.

  The modules: Proof/RouterSpec.lean (the gate, as mathematics), Proof/ReferenceGate.lean (the reference's run is the
  gate array), Proof/KernelGate.lean (the kernel body's stored value, entry by entry, is the gate),
  Proof/KernelArray.lean (the four written blocks tile the gate array; the host lines around the launch; the run).
  The two kernel frames are the generated ones, the reference's frame is its generated run with the result dropped,
  and the idealization rewrote nothing.
-/
import proofs.«178995_g32238024524133_cont_8to1_b_1868_34_alg».proof.Defs
import proofs.«178995_g32238024524133_cont_8to1_b_1868_34_alg».proof.Proof.Gen.Kernel
import proofs.«178995_g32238024524133_cont_8to1_b_1868_34_alg».proof.Proof.Gen.Kernel.Skeleton
import proofs.«178995_g32238024524133_cont_8to1_b_1868_34_alg».proof.Proof.Gen.Kernel.Launch
import proofs.«178995_g32238024524133_cont_8to1_b_1868_34_alg».proof.Proof.Gen.Kernel.Points
import proofs.«178995_g32238024524133_cont_8to1_b_1868_34_alg».proof.Proof.Gen.Kernel.Frame
import proofs.«178995_g32238024524133_cont_8to1_b_1868_34_alg».proof.Proof.Gen.KernelIdeal
import proofs.«178995_g32238024524133_cont_8to1_b_1868_34_alg».proof.Proof.Gen.KernelIdeal.Skeleton
import proofs.«178995_g32238024524133_cont_8to1_b_1868_34_alg».proof.Proof.Gen.KernelIdeal.Launch
import proofs.«178995_g32238024524133_cont_8to1_b_1868_34_alg».proof.Proof.Gen.KernelIdeal.Points
import proofs.«178995_g32238024524133_cont_8to1_b_1868_34_alg».proof.Proof.Gen.KernelIdeal.Frame
import proofs.«178995_g32238024524133_cont_8to1_b_1868_34_alg».proof.Proof.Gen.ReferenceIdeal
import proofs.«178995_g32238024524133_cont_8to1_b_1868_34_alg».proof.Proof.Gen.Pre_finite_inputs
import proofs.«178995_g32238024524133_cont_8to1_b_1868_34_alg».proof.Proof.Gen.ReferenceIdeal.Run
import proofs.«178995_g32238024524133_cont_8to1_b_1868_34_alg».proof.Proof.Gen.ReferenceIdeal.Read
import proofs.«178995_g32238024524133_cont_8to1_b_1868_34_alg».proof.Proof.RouterSpec
import proofs.«178995_g32238024524133_cont_8to1_b_1868_34_alg».proof.Proof.ReferenceGate
import proofs.«178995_g32238024524133_cont_8to1_b_1868_34_alg».proof.Proof.KernelGate
import proofs.«178995_g32238024524133_cont_8to1_b_1868_34_alg».proof.Proof.KernelArray
import Idealize.ShloMosaic.Adequacy
import Idealize.ShloMosaic.Init

noncomputable section

namespace Cert.Proof

open Idealize.ShloMosaic Idealize.SL.Sem

/-- The word-level kernel runs and leaves its arguments as they were: the generated frame. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both idealized programs end with the router's gate array of the arguments, which agree. -/
theorem algebraic : Cert.algebraic_KernelIdeal_ReferenceIdeal := by
  intro m ρ m' ρ' _ hagree
  refine ⟨fun c => Cert.Router.routerOut
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)),
    Cert.Router.Kernel.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v20_eq _ _ _ _ _).trans ((Cert.Router.Reference.result_eq _ _ _ _ _).trans ?_)
  rw [(hagree c).1, (hagree c).2.1, (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
